-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16384x32 : Shape := ⟨3, ![2, 16384, 32]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S2x16384x32 : S_.BroadcastsInDim S2x16384x32 (![] : Fin 0 → Fin S2x16384x32.rank)
  reducesTo_S2x16384x32_S_d0_1_2 : S2x16384x32.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S2x16384x32 .f32) (main_arg1 : FVec F S64x64 .f32) (main_arg2 : FVec F S64 .f32) (main_arg3 : FVec F S64x1 .f32) (main_arg4 : FVec F S1 .f32) : IVec S_ 1 :=
  let main_v0 : FVec F S2x16384x32 .f32 := Host.absf main_arg0
  let main_cst : FVec F S_ .f32 := constant S_ .f32 0x7F800000#32
  let main_v1 : FVec F S2x16384x32 .f32 := broadcastInDim S2x16384x32 ![] bcast_S_S2x16384x32 main_cst
  let main_v2 : IVec S2x16384x32 1 := cmpf .olt main_v0 main_v1
  let main_c : IVec S_ 1 := constantI S_ 1 1#1
  let main_v3 : IVec S_ 1 := (fun x v => Host.reduce IntOp.andi x v reducesTo_S2x16384x32_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_v13 main_v16
-- ==== Kernel.lean ====
abbrev S2x16384x32 : Shape := ⟨3, ![2, 16384, 32]⟩
abbrev S64x64 : Shape := ⟨2, ![64, 64]⟩
abbrev S64 : Shape := ⟨1, ![64]⟩
abbrev S64x1 : Shape := ⟨2, ![64, 1]⟩
abbrev S1 : Shape := ⟨1, ![1]⟩
abbrev S32x64 : Shape := ⟨2, ![32, 64]⟩
abbrev S1x64 : Shape := ⟨2, ![1, 64]⟩
abbrev S1x1 : Shape := ⟨2, ![1, 1]⟩
abbrev S16384x1 : Shape := ⟨2, ![16384, 1]⟩
abbrev S2x2048x32 : Shape := ⟨3, ![2, 2048, 32]⟩
abbrev S2048x1 : Shape := ⟨2, ![2048, 1]⟩
abbrev S1x2048x32 : Shape := ⟨3, ![1, 2048, 32]⟩
abbrev S2048x32 : Shape := ⟨2, ![2048, 32]⟩
abbrev S2048x64 : Shape := ⟨2, ![2048, 64]⟩
abbrev S2048 : Shape := ⟨1, ![2048]⟩

abbrev nBuf : Space → Nat
  | .hbm => 11
  | .vmem => 9
  | .smem => 0
  | _ => 0

abbrev bufTy : (tb : Table) → Fin (tcTables nBuf tb) → BufTy
  | .hbm, ⟨0, _⟩ => ⟨S2x16384x32, .f32⟩
  | .hbm, ⟨1, _⟩ => ⟨S64x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S32x64, .f32⟩
  | .hbm, ⟨6, _⟩ => ⟨S32x64, .f32⟩
  | .hbm, ⟨7, _⟩ => ⟨S1x64, .f32⟩
  | .hbm, ⟨8, _⟩ => ⟨S1x64, .f32⟩
  | .hbm, ⟨9, _⟩ => ⟨S1x1, .f32⟩
  | .hbm, ⟨10, _⟩ => ⟨S16384x1, .f32⟩
  | .local _ .vmem, ⟨0, _⟩ => ⟨S2x2048x32, .f32⟩
  | .local _ .vmem, ⟨1, _⟩ => ⟨S2x2048x32, .f32⟩
  | .local _ .vmem, ⟨2, _⟩ => ⟨S32x64, .f32⟩
  | .local _ .vmem, ⟨3, _⟩ => ⟨S32x64, .f32⟩
  | .local _ .vmem, ⟨4, _⟩ => ⟨S1x64, .f32⟩
  | .local _ .vmem, ⟨5, _⟩ => ⟨S1x64, .f32⟩
  | .local _ .vmem, ⟨6, _⟩ => ⟨S1x1, .f32⟩
  | .local _ .vmem, ⟨7, _⟩ => ⟨S2048x1, .f32⟩
  | .local _ .vmem, ⟨8, _⟩ => ⟨S2048x1, .f32⟩
  | _, _ => ⟨S2x16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S64x64_S32x64_0_0 : S64x64.Slices ![0, 0] S32x64
  slices_S64x64_S32x64_32_0 : S64x64.Slices ![32, 0] S32x64
  shapeCasts_S64_S1x64 : S64.ShapeCasts S1x64
  shapeCasts_S64x1_S1x64 : S64x1.ShapeCasts S1x64
  shapeCasts_S1_S1x1 : S1.ShapeCasts S1x1
  inb_S2x2048x32_S1x2048x32_0_0_0 : ∀ a, (![0, 0, 0] : Fin 3 → Nat) a + S1x2048x32.size a ≤ S2x2048x32.size a
  h_S1x2048x32 : 0 < S1x2048x32.numel
  shapeCasts_S1x2048x32_S2048x32 : S1x2048x32.ShapeCasts S2048x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S2x2048x32_S1x2048x32_1_0_0 : ∀ a, (![1, 0, 0] : Fin 3 → Nat) a + S1x2048x32.size a ≤ S2x2048x32.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  reduces_S2048x64_S2048 : S2048x64.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x32_S32x64_S2048x64_1_0_0_1_n_n_wf : DotDims.WF S2048x32 S32x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x32.size a ≤ S2x16384x32.size a
  hwx0_0 : ∀ i : grid0.Coords, EltTy.bits .f32 = 32 ∨ (Rect.block (s := S2x16384x32) S2x2048x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S16384x1.size a
  hwx0_6 : ∀ i : grid0.Coords, EltTy.bits .f32 = 32 ∨ (Rect.block (s := S16384x1) S2048x1.size (cc0_transform_6 i) (hinb0_6 i)).WholeWords (EltTy.packing .f32)

variable [Facts₀]

def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf

abbrev win0_0 : Pipeline.Window sig grid0 :=
  Pipeline.Window.ofSpec (Memref.whole main_arg0) S2x2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S2048x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x16384x32 : Shape := ⟨3, ![2, 16384, 32]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x16384x32 : Shape := ⟨3, ![1, 16384, 32]⟩
abbrev S16384x32 : Shape := ⟨2, ![16384, 32]⟩
abbrev S16384x64 : Shape := ⟨2, ![16384, 64]⟩
abbrev S1x64 : Shape := ⟨2, ![1, 64]⟩
abbrev S_ : Shape := ⟨0, ![]⟩
abbrev S16384x1 : Shape := ⟨2, ![16384, 1]⟩
abbrev S1x1 : Shape := ⟨2, ![1, 1]⟩

abbrev nBuf : Space → Nat
  | .hbm => 21
  | .vmem => 0
  | .smem => 0
  | _ => 0

abbrev bufTy : (tb : Table) → Fin (tcTables nBuf tb) → BufTy
  | .hbm, ⟨0, _⟩ => ⟨S2x16384x32, .f32⟩
  | .hbm, ⟨1, _⟩ => ⟨S64x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S1x16384x32, .f32⟩
  | .hbm, ⟨6, _⟩ => ⟨S16384x32, .f32⟩
  | .hbm, ⟨7, _⟩ => ⟨S1x16384x32, .f32⟩
  | .hbm, ⟨8, _⟩ => ⟨S16384x32, .f32⟩
  | .hbm, ⟨9, _⟩ => ⟨S16384x64, .f32⟩
  | .hbm, ⟨10, _⟩ => ⟨S16384x64, .f32⟩
  | .hbm, ⟨11, _⟩ => ⟨S1x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384x64, .f32⟩
  | .hbm, ⟨16, _⟩ => ⟨S16384x64, .f32⟩
  | .hbm, ⟨17, _⟩ => ⟨S16384x1, .f32⟩
  | .hbm, ⟨18, _⟩ => ⟨S1x1, .f32⟩
  | .hbm, ⟨19, _⟩ => ⟨S16384x1, .f32⟩
  | .hbm, ⟨20, _⟩ => ⟨S16384x1, .f32⟩
  | _, _ => ⟨S2x16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  slices_S2x16384x32_S1x16384x32_0_0_0 : S2x16384x32.Slices ![0, 0, 0] S1x16384x32
  shapeCasts_S1x16384x32_S16384x32 : S1x16384x32.ShapeCasts S16384x32
  slices_S2x16384x32_S1x16384x32_1_0_0 : S2x16384x32.Slices ![1, 0, 0] S1x16384x32
  concatenates_S16384x32_S16384x32_S16384x64_d1 : Shape.Concatenates [S16384x32, S16384x32] S16384x64 1
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x64_S64x64_S16384x64_1_0_0_1_n_n_wf : DotDims.WF S16384x64 S64x64 S16384x64 [1] [0] [0] [1] [] []
  dot_S16384x64_S64x1_S16384x1_1_0_0_1_n_n_wf : DotDims.WF S16384x64 S64x1 S16384x1 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.BodyRow.lean ====
/-
  What one grid step of the kernel stores, read at one entry.

  A grid step holds a block of 2048 batch rows: the two tables' rows as a 2 × 2048 × 32 stack (loaded plane by plane as
  `v0`, `v5`), the top and bottom halves of W0 as two 32 × 64 matrices (`v2`, `v7`), the biases and the output column as
  rows (`v11` : 1 × 64, `v17` : 1 × 64, `v23` : 1 × 1). It stores a 2048 × 1 column. At (p, 0) that column holds

      (Σ_j  max ((Σ_k v0[0, p, k] · v2[k, j]  +  Σ_k v5[0, p, k] · v7[k, j]) + v11[0, j]) 0 · v17[0, j]) + v23[0, 0].

  Each matrix product into a zero accumulator is, at (p, j), the inner product of row p with column j (`product_apply`:
  the contraction's one axis has 32 coordinates). The bias rows are broadcast down the 2048 rows, the rectifier is the
  maximum with 0, the product with the output column is taken entry by entry and summed along each row, and the sum is
  re-laid from a vector of 2048 numbers to a 2048 × 1 column, which moves no element.
-/
import proofs.«140638_g12249246728547_cont_main3_525_5_alg».proof.Proof.Gen.KernelIdeal.Skeleton
import proofs.«140638_g12249246728547_cont_main3_525_5_alg».proof.Proof.LibRowOps
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The matrix product at an entry -/

theorem lhs_product_0 (i : S2048x64.Idx) (q : dot_S2048x32_S32x64_S2048x64_1_0_0_1_n_n.contr.Idx) :
    (dot_S2048x32_S32x64_S2048x64_1_0_0_1_n_n.lhsIdx i q 0).val = (i 0).val := by
  unfold DotDims.lhsIdx
  rw [dif_neg (show ¬(0 : Fin S2048x32.rank) ∈ dot_S2048x32_S32x64_S2048x64_1_0_0_1_n_n.lhsBatch by decide), dif_pos (show (0 : Fin S2048x32.rank) ∈ dot_S2048x32_S32x64_S2048x64_1_0_0_1_n_n.lhsNonContracting by decide)]
  rfl
theorem lhs_product_1 (i : S2048x64.Idx) (q : dot_S2048x32_S32x64_S2048x64_1_0_0_1_n_n.contr.Idx) :
    (dot_S2048x32_S32x64_S2048x64_1_0_0_1_n_n.lhsIdx i q 1).val = (q ⟨0, by decide⟩).val :=
  dot_S2048x32_S32x64_S2048x64_1_0_0_1_n_n.lhsIdx_val_of_single rfl i q
theorem rhs_product_0 (i : S2048x64.Idx) (q : dot_S2048x32_S32x64_S2048x64_1_0_0_1_n_n.contr.Idx) :
    (dot_S2048x32_S32x64_S2048x64_1_0_0_1_n_n.rhsIdx i q 0).val = (q ⟨0, by decide⟩).val :=
  dot_S2048x32_S32x64_S2048x64_1_0_0_1_n_n.rhsIdx_val_of_single rfl i q
theorem rhs_product_1 (i : S2048x64.Idx) (q : dot_S2048x32_S32x64_S2048x64_1_0_0_1_n_n.contr.Idx) :
    (dot_S2048x32_S32x64_S2048x64_1_0_0_1_n_n.rhsIdx i q 1).val = (i 1).val := by
  unfold DotDims.rhsIdx
  rw [dif_neg (show ¬(1 : Fin S32x64.rank) ∈ dot_S2048x32_S32x64_S2048x64_1_0_0_1_n_n.rhsBatch by decide), dif_pos (show (1 : Fin S32x64.rank) ∈ dot_S2048x32_S32x64_S2048x64_1_0_0_1_n_n.rhsNonContracting by decide)]
  rfl

/-- A 2048 × 32 matrix times a 32 × 64 matrix, into a zero accumulator, at `(p, j)`: row `p` against column `j`. -/
theorem product_apply (a : FVec Ideal S2048x32 .f32) (b : FVec Ideal S32x64 .f32) (p : Fin 2048) (j : Fin 64) :
    matmul dot_S2048x32_S32x64_S2048x64_1_0_0_1_n_n none a b (constant S2048x64 .f32 0x00000000#32) (ix2 p j)
      = ∑ k : Fin 32, a (ix2 p k) * b (ix2 k j) := by
  simp only [matmul]
  rw [Ideal.matmul_constant_zero_apply, ← Equiv.sum_comp (ValueIdx.contrEquiv1 dot_S2048x32_S32x64_S2048x64_1_0_0_1_n_n 32 rfl rfl).symm]
  refine Finset.sum_congr rfl fun k _ => ?_
  have hk := ValueIdx.contrEquiv1_symm_val dot_S2048x32_S32x64_S2048x64_1_0_0_1_n_n 32 rfl rfl k
  have el : dot_S2048x32_S32x64_S2048x64_1_0_0_1_n_n.lhsIdx (ix2 p j) ((ValueIdx.contrEquiv1 dot_S2048x32_S32x64_S2048x64_1_0_0_1_n_n 32 rfl rfl).symm k) = ix2 p k := funext fun a => Fin.ext (by
    match a with
    | ⟨0, _⟩ => exact lhs_product_0 _ _
    | ⟨1, _⟩ => exact (lhs_product_1 _ _).trans hk)
  have er : dot_S2048x32_S32x64_S2048x64_1_0_0_1_n_n.rhsIdx (ix2 p j) ((ValueIdx.contrEquiv1 dot_S2048x32_S32x64_S2048x64_1_0_0_1_n_n 32 rfl rfl).symm k) = ix2 k j := funext fun a => Fin.ext (by
    match a with
    | ⟨0, _⟩ => exact (rhs_product_0 _ _).trans hk
    | ⟨1, _⟩ => exact rhs_product_1 _ _)
  rw [el, er]

/-! ## The stored column at an entry -/

/-- The column a grid step stores, at `(p, u)`, from the blocks it loaded. -/
theorem stored_apply (v0 : Vec Ideal S1x2048x32 .f32) (v2 : Vec Ideal S32x64 .f32) (v5 : Vec Ideal S1x2048x32 .f32)
    (v7 : Vec Ideal S32x64 .f32) (v11 : Vec Ideal S1x64 .f32) (v17 : Vec Ideal S1x64 .f32) (v23 : Vec Ideal S1x1 .f32)
    (p : Fin 2048) (u : Fin 1) :
    k0_pay1 (F := Ideal) v0 v2 v5 v7 v11 v17 v23 (ix2 p u)
      = (∑ j : Fin 64, max ((∑ k : Fin 32, v0 (ix3 (0 : Fin 1) p k) * v2 (ix2 k j)
            + ∑ k : Fin 32, v5 (ix3 (0 : Fin 1) p k) * v7 (ix2 k j)) + v11 (ix2 (0 : Fin 1) j)) 0 * v17 (ix2 (0 : Fin 1) j))
          + v23 (ix2 (0 : Fin 1) (0 : Fin 1)) := by
  obtain rfl : u = 0 := Subsingleton.elim _ _
  unfold k0_pay1
  dsimp only
  refine (addf_apply _ _ _).trans (congrArg₂ (· + ·) ?_ ?_)
  · -- the re-laid row sums, at row `p`
    refine (RowOps.shapeCast_a_a1_apply _ _ p 0).trans ?_
    refine (RowOps.multiReduction_add_row _ _ _ _ _ p).trans (Finset.sum_congr rfl fun j _ => ?_)
    simp only [addf_apply, mulf_apply, maximumf_apply, broadcast_apply, broadcastTo_1b_ab_apply, shapeCast_self,
      product_apply, shapeCast_1ab_ab_apply, Scalar.ofBits, Ideal.ofBits_def, Ideal.ofBits_zero_f32]
  · -- the output bias, broadcast down the column
    simp only [broadcastTo_1b_ab_apply, shapeCast_self]

end Cert.KernelIdeal.Hand

end
-- ==== Proof.Score.lean ====
/-
  The score of one batch row, as a function of the five argument arrays.

  The arguments are a stack of two embedding tables x[0], x[1] (each 16384 rows of 32 numbers), a 64 × 64 weight matrix W0
  with its bias b0, and a 64 × 1 weight column W1 with its bias b1. Row r of the result is

      score r = (Σ_j  max (pre r j) 0 · W1[j, 0]) + b1[0],       j over the 64 hidden units,
      pre r j = (Σ_k x[0, r, k] · W0[k, j]  +  Σ_k x[1, r, k] · W0[32 + k, j]) + b0[j],     k over 32.

  The first inner sum pairs the first table's row with the TOP 32 rows of W0 and the second pairs the second table's row
  with the BOTTOM 32 rows. This is the same number as the single sum over all 64 rows of W0 against the 64-long row
  obtained by laying the two table rows side by side: a sum over 64 terms is the sum of its first 32 terms plus the sum of
  its last 32 (`sum_halves`). Addition of extended reals is commutative and associative, so this regrouping needs no
  finiteness of the entries.
-/
import Idealize.ShloMosaic.PureOps.Ideal
import Idealize.ShloMosaic.Lib.ValueIdx

noncomputable section

open scoped BigOperators

namespace Mlp

open Idealize.ShloMosaic Idealize.ShloMosaic.ValueIdx

/-- Row `k` of the top half of a 64-row matrix. -/
def top (k : Fin 32) : Fin 64 := ⟨k.val, by omega⟩
/-- Row `k` of the bottom half of a 64-row matrix: row `32 + k` of the whole. -/
def bot (k : Fin 32) : Fin 64 := ⟨32 + k.val, by omega⟩

@[simp] theorem top_val (k : Fin 32) : (top k).val = k.val := rfl
@[simp] theorem bot_val (k : Fin 32) : (bot k).val = 32 + k.val := rfl

/-- A sum over 64 terms is the sum over the first 32 plus the sum over the last 32. -/
theorem sum_halves {M : Type*} [AddCommMonoid M] (f : Fin 64 → M) :
    ∑ k : Fin 64, f k = ∑ k : Fin 32, f (top k) + ∑ k : Fin 32, f (bot k) :=
  Fin.sum_univ_add (a := 32) (b := 32) f

/-- The value a hidden unit `j` receives for batch row `r`, before the rectifier. -/
def pre (x : (⟨3, ![2, 16384, 32]⟩ : Shape).Idx → EReal) (W0 : (⟨2, ![64, 64]⟩ : Shape).Idx → EReal)
    (b0 : (⟨1, ![64]⟩ : Shape).Idx → EReal) (r : Fin 16384) (j : Fin 64) : EReal :=
  (∑ k : Fin 32, x (ix3 (0 : Fin 2) r k) * W0 (ix2 (top k) j)
    + ∑ k : Fin 32, x (ix3 (1 : Fin 2) r k) * W0 (ix2 (bot k) j)) + b0 (ix1 j)

/-- The score of batch row `r`: the rectified hidden units against the output column, plus the output bias. -/
def scoreAt (x : (⟨3, ![2, 16384, 32]⟩ : Shape).Idx → EReal) (W0 : (⟨2, ![64, 64]⟩ : Shape).Idx → EReal)
    (b0 : (⟨1, ![64]⟩ : Shape).Idx → EReal) (W1 : (⟨2, ![64, 1]⟩ : Shape).Idx → EReal)
    (b1 : (⟨1, ![1]⟩ : Shape).Idx → EReal) (r : Fin 16384) : EReal :=
  (∑ j : Fin 64, max (pre x W0 b0 r j) 0 * W1 (ix2 j (0 : Fin 1))) + b1 (ix1 (0 : Fin 1))

/-- The whole result, a 16384 × 1 column: entry `(r, 0)` is the score of row `r`. -/
def score (x : (⟨3, ![2, 16384, 32]⟩ : Shape).Idx → EReal) (W0 : (⟨2, ![64, 64]⟩ : Shape).Idx → EReal)
    (b0 : (⟨1, ![64]⟩ : Shape).Idx → EReal) (W1 : (⟨2, ![64, 1]⟩ : Shape).Idx → EReal)
    (b1 : (⟨1, ![1]⟩ : Shape).Idx → EReal) : (⟨2, ![16384, 1]⟩ : Shape).Idx → EReal :=
  fun i => scoreAt x W0 b0 W1 b1 ⟨(i 0).val, idx2_lt0 i⟩

theorem score_apply (x : (⟨3, ![2, 16384, 32]⟩ : Shape).Idx → EReal) (W0 : (⟨2, ![64, 64]⟩ : Shape).Idx → EReal)
    (b0 : (⟨1, ![64]⟩ : Shape).Idx → EReal) (W1 : (⟨2, ![64, 1]⟩ : Shape).Idx → EReal)
    (b1 : (⟨1, ![1]⟩ : Shape).Idx → EReal) (r : Fin 16384) (u : Fin 1) :
    score x W0 b0 W1 b1 (ix2 r u) = scoreAt x W0 b0 W1 b1 r := rfl

end Mlp

end
-- ==== Proof.Blocks.lean ====
/-
  From the grid steps to the whole result: the kernel's output array ends holding `Mlp.score` of the five arguments.

  The batch of 16384 rows is cut into 8 blocks of 2048; grid step t works on rows 2048·t … 2048·t + 2047.
  • What a step is given. Its block of the stacked tables is entry (e, 2048·t + p, k) of the argument at (e, p, k)
    (`tables_block`). The other five operands are the same at every step, and they are arrays the program prepares before
    the steps begin: the top 32 rows of W0, the bottom 32 rows of W0, b0 as a row, the column W1 as a row, b1 as a 1 × 1
    array (`entry_top` … `entry_b1`, and at an entry `top_block` … `b1_block`).
  • What a step stores. With those operands, the column computed in `stored_apply` is, at (p, 0), the score of row
    2048·t + p (`block_scores`, stated for any blocks that hold those entries).
  • So what step t writes back is block t of the column of all scores (`flushed_eq`); row r lies in block r / 2048, so the
    blocks cover the column (`covered`), and the array ends as that column (`result_eq`, `run`).
-/
import proofs.«140638_g12249246728547_cont_main3_525_5_alg».proof.Proof.Gen.KernelIdeal.Value
import proofs.«140638_g12249246728547_cont_main3_525_5_alg».proof.Proof.BodyRow
import proofs.«140638_g12249246728547_cont_main3_525_5_alg».proof.Proof.Score
import Idealize.ShloMosaic.Lib.StableHlo.Run
import Idealize.ShloMosaic.Lib.Pipeline.Value
import Idealize.ShloMosaic.Lib.ValueLayout
import Idealize.ShloMosaic.Lib.ValueIdx

noncomputable section

open scoped BigOperators

namespace Cert.KernelIdeal.Hand

open Cert.KernelIdeal Cert.KernelIdeal.Gen Cert.KernelIdeal.Value
open Idealize.ShloMosaic Idealize.ShloMosaic.TcCoe Idealize.SL.Sem Idealize.ShloMosaic.ValueIdx Mlp
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl

/-! ## One block's column, from blocks that hold the right entries -/

/-- The first plane of a step's 2 × 2048 × 32 block, loaded as a 1 × 2048 × 32 array: entry `(0, p, k)` of the load is
    entry `(0, p, k)` of the block. -/
theorem plane0_idx (p : Fin 2048) (k : Fin 32) : r0_0.idx (ix3 (0 : Fin 1) p k) = ix3 (0 : Fin 2) p k :=
  funext fun a => Fin.ext (by
    match a with
    | ⟨0, _⟩ => rfl
    | ⟨1, _⟩ => show 0 + 1 * p.val = p.val; omega
    | ⟨2, _⟩ => show 0 + 1 * k.val = k.val; omega)

/-- The second plane: entry `(0, p, k)` of the load is entry `(1, p, k)` of the block. -/
theorem plane1_idx (p : Fin 2048) (k : Fin 32) : r0_2.idx (ix3 (0 : Fin 1) p k) = ix3 (1 : Fin 2) p k :=
  funext fun a => Fin.ext (by
    match a with
    | ⟨0, _⟩ => rfl
    | ⟨1, _⟩ => show 0 + 1 * p.val = p.val; omega
    | ⟨2, _⟩ => show 0 + 1 * k.val = k.val; omega)

/-- The other operands are loaded whole: an entry of the load is the same entry of the operand. -/
theorem half_idx (k : Fin 32) (j : Fin 64) : r0_1.idx (ix2 k j) = ix2 k j :=
  funext fun a => Fin.ext (by
    match a with
    | ⟨0, _⟩ => show 0 + 1 * k.val = k.val; omega
    | ⟨1, _⟩ => show 0 + 1 * j.val = j.val; omega)
theorem row_idx (j : Fin 64) : r0_3.idx (ix2 (0 : Fin 1) j) = ix2 (0 : Fin 1) j :=
  funext fun a => Fin.ext (by
    match a with
    | ⟨0, _⟩ => rfl
    | ⟨1, _⟩ => show 0 + 1 * j.val = j.val; omega)
theorem cell_idx : r0_4.idx (ix2 (0 : Fin 1) (0 : Fin 1)) = ix2 (0 : Fin 1) (0 : Fin 1) :=
  funext fun a => Fin.ext (by
    match a with
    | ⟨0, _⟩ => rfl
    | ⟨1, _⟩ => rfl)

/-- If a step's operands hold block `n` of the tables, the two halves of W0, and b0, W1, b1 as rows, the column it
    stores is, at `(p, 0)`, the score of row `2048·n + p`. -/
theorem block_scores (X : (⟨3, ![2, 16384, 32]⟩ : Shape).Idx → EReal) (W0 : (⟨2, ![64, 64]⟩ : Shape).Idx → EReal)
    (b0 : (⟨1, ![64]⟩ : Shape).Idx → EReal) (W1 : (⟨2, ![64, 1]⟩ : Shape).Idx → EReal) (b1 : (⟨1, ![1]⟩ : Shape).Idx → EReal)
    (x : Vec Ideal S2x2048x32 .f32) (A B : Vec Ideal S32x64 .f32) (β ω : Vec Ideal S1x64 .f32) (γ : Vec Ideal S1x1 .f32)
    (n : ℕ) (hn : n < 8)
    (hx : ∀ (e : Fin 2) (p : Fin 2048) (k : Fin 32), x (ix3 e p k) = X (ix3 e ⟨n * 2048 + p.val, by omega⟩ k))
    (hA : ∀ (k : Fin 32) (j : Fin 64), A (ix2 k j) = W0 (ix2 (top k) j))
    (hB : ∀ (k : Fin 32) (j : Fin 64), B (ix2 k j) = W0 (ix2 (bot k) j))
    (hβ : ∀ j : Fin 64, β (ix2 (0 : Fin 1) j) = b0 (ix1 j))
    (hω : ∀ j : Fin 64, ω (ix2 (0 : Fin 1) j) = W1 (ix2 j (0 : Fin 1)))
    (hγ : γ (ix2 (0 : Fin 1) (0 : Fin 1)) = b1 (ix1 (0 : Fin 1)))
    (p : Fin 2048) (u : Fin 1) :
    out0_6 (F := Ideal) x A B β ω γ (ix2 p u) = scoreAt X W0 b0 W1 b1 ⟨n * 2048 + p.val, by omega⟩ := by
  unfold out0_6
  rw [View.canon_unit_zero zeros2, stored_apply]
  simp only [View.ld, plane0_idx, plane1_idx, half_idx, row_idx, cell_idx, hx, hA, hB, hβ, hω, hγ]
  rfl

/-! ## The arrays the program prepares before the steps -/

theorem entry_top (c : Dev nD) : (V m c main_v0 : S32x64.Idx → EReal)
    = extractStridedSlice S32x64 ![0, 0] (m ((c : Thread nD τ).loc main_arg1)) slices_S64x64_S32x64_0_0 := by
  dsimp only [Gen.V, Gen.hostOps0]; after_results <;> rfl

theorem entry_bot (c : Dev nD) : (V m c main_v1 : S32x64.Idx → EReal)
    = extractStridedSlice S32x64 ![32, 0] (m ((c : Thread nD τ).loc main_arg1)) slices_S64x64_S32x64_32_0 := by
  dsimp only [Gen.V, Gen.hostOps0]; after_results <;> rfl

theorem entry_b0 (c : Dev nD) : (V m c main_v2 : S1x64.Idx → EReal)
    = shapeCast S1x64 (m ((c : Thread nD τ).loc main_arg2)) shapeCasts_S64_S1x64 := by
  dsimp only [Gen.V, Gen.hostOps0]; after_results <;> rfl

theorem entry_w1 (c : Dev nD) : (V m c main_v3 : S1x64.Idx → EReal)
    = shapeCast S1x64 (m ((c : Thread nD τ).loc main_arg3)) shapeCasts_S64x1_S1x64 := by
  dsimp only [Gen.V, Gen.hostOps0]; after_results <;> rfl

theorem entry_b1 (c : Dev nD) : (V m c main_v4 : S1x1.Idx → EReal)
    = shapeCast S1x1 (m ((c : Thread nD τ).loc main_arg4)) shapeCasts_S1_S1x1 := by
  dsimp only [Gen.V, Gen.hostOps0]; after_results <;> rfl

/-- A 64 × 1 column re-laid as a 1 × 64 row reads, at `(0, j)`, the column's entry `(j, 0)`. -/
theorem column_as_row {α : Type} (x : (⟨2, ![64, 1]⟩ : Shape).Idx → α)
    (h : (⟨2, ![64, 1]⟩ : Shape).ShapeCasts ⟨2, ![1, 64]⟩) (j : Fin 64) :
    shapeCast ⟨2, ![1, 64]⟩ x h (ix2 (0 : Fin 1) j) = x (ix2 j (0 : Fin 1)) :=
  shapeCast_apply x h _ _ (by
    rw [Shape.rowMajor_val_two, Shape.rowMajor_val_two]
    show j.val * 1 + 0 = 0 * 64 + j.val
    omega)

/-! ## The grid's index maps, decided over the 8 steps -/

theorem index_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem step_lt (t : Fin cfg0.N) : t.val < 8 := by
  have h := t.isLt; have e : cfg0.N = 8 := N_0; omega

/-! ## What a step is given, at an entry -/

theorem tables_block (c : Dev nD) (t : Fin cfg0.N) (e : Fin 2) (p : Fin 2048) (k : Fin 32) :
    (iblk m c 0 t : Vec Ideal S2x2048x32 .f32) (ix3 e p k)
      = ((m ((c : Thread nD τ).loc main_arg0)) : S2x16384x32.Idx → EReal) (ix3 e ⟨t.val * 2048 + p.val, by have := step_lt t; omega⟩ k) := by
  obtain ⟨h0, h1, h2, -⟩ := index_facts t
  unfold iblk
  rw [View.read_apply]
  show V m c main_arg0 _ = m (c.tc.loc main_arg0) _
  rw [V_main_arg0]
  congr 1
  funext a
  apply Fin.ext
  match a with
  | ⟨0, _⟩ => show win0_0.index t 0 * 2 + 1 * e.val = e.val; rw [h0]; omega
  | ⟨1, _⟩ => show win0_0.index t 1 * 2048 + 1 * p.val = t.val * 2048 + p.val; rw [h1]; omega
  | ⟨2, _⟩ => show win0_0.index t 2 * 32 + 1 * k.val = k.val; rw [h2]; omega

theorem top_block (c : Dev nD) (t : Fin cfg0.N) (k : Fin 32) (j : Fin 64) :
    (iblk m c 1 t : Vec Ideal S32x64 .f32) (ix2 k j) = ((m ((c : Thread nD τ).loc main_arg1)) : S64x64.Idx → EReal) (ix2 (top k) j) := by
  obtain ⟨-, -, -, h0, h1, -⟩ := index_facts t
  unfold iblk
  rw [View.read_apply]
  show V m c main_v0 _ = _
  rw [entry_top]
  have he : ((cfg0.win 1).blk t).view.emb (ix2 k j) = (ix2 k j : S32x64.Idx) := funext fun a => Fin.ext (by
    match a with
    | ⟨0, _⟩ => show win0_1.index t 0 * 32 + 1 * k.val = k.val; rw [h0]; omega
    | ⟨1, _⟩ => show win0_1.index t 1 * 64 + 1 * j.val = j.val; rw [h1]; omega)
  rw [he]
  exact slice2_axis0_apply 0 _ _ k j (top k) (by simp)

theorem bot_block (c : Dev nD) (t : Fin cfg0.N) (k : Fin 32) (j : Fin 64) :
    (iblk m c 2 t : Vec Ideal S32x64 .f32) (ix2 k j) = ((m ((c : Thread nD τ).loc main_arg1)) : S64x64.Idx → EReal) (ix2 (bot k) j) := by
  obtain ⟨-, -, -, -, -, h0, h1, -⟩ := index_facts t
  unfold iblk
  rw [View.read_apply]
  show V m c main_v1 _ = _
  rw [entry_bot]
  have he : ((cfg0.win 2).blk t).view.emb (ix2 k j) = (ix2 k j : S32x64.Idx) := funext fun a => Fin.ext (by
    match a with
    | ⟨0, _⟩ => show win0_2.index t 0 * 32 + 1 * k.val = k.val; rw [h0]; omega
    | ⟨1, _⟩ => show win0_2.index t 1 * 64 + 1 * j.val = j.val; rw [h1]; omega)
  rw [he]
  exact slice2_axis0_apply 32 _ _ k j (bot k) rfl

theorem b0_block (c : Dev nD) (t : Fin cfg0.N) (j : Fin 64) :
    (iblk m c 3 t : Vec Ideal S1x64 .f32) (ix2 (0 : Fin 1) j) = ((m ((c : Thread nD τ).loc main_arg2)) : S64.Idx → EReal) (ix1 j) := by
  obtain ⟨-, -, -, -, -, -, -, h0, h1, -⟩ := index_facts t
  unfold iblk
  rw [View.read_apply]
  show V m c main_v2 _ = _
  rw [entry_b0]
  have he : ((cfg0.win 3).blk t).view.emb (ix2 (0 : Fin 1) j) = (ix2 (0 : Fin 1) j : S1x64.Idx) := funext fun a => Fin.ext (by
    match a with
    | ⟨0, _⟩ => show win0_3.index t 0 * 1 + 1 * 0 = 0; rw [h0]
    | ⟨1, _⟩ => show win0_3.index t 1 * 64 + 1 * j.val = j.val; rw [h1]; omega)
  rw [he]
  exact shapeCast_a_1a_apply _ _ 0 j

theorem w1_block (c : Dev nD) (t : Fin cfg0.N) (j : Fin 64) :
    (iblk m c 4 t : Vec Ideal S1x64 .f32) (ix2 (0 : Fin 1) j) = ((m ((c : Thread nD τ).loc main_arg3)) : S64x1.Idx → EReal) (ix2 j (0 : Fin 1)) := by
  obtain ⟨-, -, -, -, -, -, -, -, -, h0, h1, -⟩ := index_facts t
  unfold iblk
  rw [View.read_apply]
  show V m c main_v3 _ = _
  rw [entry_w1]
  have he : ((cfg0.win 4).blk t).view.emb (ix2 (0 : Fin 1) j) = (ix2 (0 : Fin 1) j : S1x64.Idx) := funext fun a => Fin.ext (by
    match a with
    | ⟨0, _⟩ => show win0_4.index t 0 * 1 + 1 * 0 = 0; rw [h0]
    | ⟨1, _⟩ => show win0_4.index t 1 * 64 + 1 * j.val = j.val; rw [h1]; omega)
  rw [he]
  exact column_as_row _ _ j

theorem b1_block (c : Dev nD) (t : Fin cfg0.N) :
    (iblk m c 5 t : Vec Ideal S1x1 .f32) (ix2 (0 : Fin 1) (0 : Fin 1)) = ((m ((c : Thread nD τ).loc main_arg4)) : S1.Idx → EReal) (ix1 (0 : Fin 1)) := by
  obtain ⟨-, -, -, -, -, -, -, -, -, -, -, h0, h1, -⟩ := index_facts t
  unfold iblk
  rw [View.read_apply]
  show V m c main_v4 _ = _
  rw [entry_b1]
  have he : ((cfg0.win 5).blk t).view.emb (ix2 (0 : Fin 1) (0 : Fin 1)) = (ix2 (0 : Fin 1) (0 : Fin 1) : S1x1.Idx) := funext fun a => Fin.ext (by
    match a with
    | ⟨0, _⟩ => show win0_5.index t 0 * 1 + 1 * 0 = 0; rw [h0]
    | ⟨1, _⟩ => show win0_5.index t 1 * 1 + 1 * 0 = 0; rw [h1])
  rw [he]
  exact shapeCast_a_1a_apply _ _ 0 0

/-! ## What a step writes back, the cover, the run -/

/-- The column step `t` stores: at `(p, 0)` the score of row `2048·t + p`. -/
theorem step_column (c : Dev nD) (t : Fin cfg0.N) :
    out0_6 (F := Ideal) (iblk m c 0 t) (iblk m c 1 t) (iblk m c 2 t) (iblk m c 3 t) (iblk m c 4 t) (iblk m c 5 t)
      = fun y : S2048x1.Idx => scoreAt (m ((c : Thread nD τ).loc main_arg0)) (m ((c : Thread nD τ).loc main_arg1)) (m ((c : Thread nD τ).loc main_arg2)) (m ((c : Thread nD τ).loc main_arg3)) (m ((c : Thread nD τ).loc main_arg4))
          ⟨t.val * 2048 + (y 0).val, by have := step_lt t; have := idx2_lt0 y; omega⟩ := by
  funext y
  obtain ⟨p, u, rfl⟩ : ∃ (p : Fin 2048) (u : Fin 1), y = ix2 p u := ⟨y 0, y 1, eq_ix2 y⟩
  exact block_scores (m ((c : Thread nD τ).loc main_arg0)) (m ((c : Thread nD τ).loc main_arg1)) (m ((c : Thread nD τ).loc main_arg2)) (m ((c : Thread nD τ).loc main_arg3)) (m ((c : Thread nD τ).loc main_arg4))
    (iblk m c 0 t) (iblk m c 1 t) (iblk m c 2 t) (iblk m c 3 t) (iblk m c 4 t) (iblk m c 5 t) t.val (step_lt t)
    (tables_block m c t) (top_block m c t) (bot_block m c t) (b0_block m c t) (w1_block m c t) (b1_block m c t) p u

/-- Step `t` writes back block `t` of the column of all scores. -/
theorem flushed_eq (c : Dev nD) (t : Fin cfg0.N) :
    (dats m 0 c).flushed 6 t = ((cfg0.win 6).blk t).view.read (Elt Ideal) (score (m ((c : Thread nD τ).loc main_arg0)) (m ((c : Thread nD τ).loc main_arg1)) (m ((c : Thread nD τ).loc main_arg2)) (m ((c : Thread nD τ).loc main_arg3)) (m ((c : Thread nD τ).loc main_arg4))) := by
  obtain ⟨-, -, -, -, -, -, -, -, -, -, -, -, -, h0, -⟩ := index_facts t
  rw [flushed6, step_column]
  funext y
  show scoreAt _ _ _ _ _ ⟨t.val * 2048 + (y 0).val, _⟩
    = scoreAt _ _ _ _ _ ⟨(((cfg0.win 6).blk t).view.emb y 0).val, _⟩
  refine congrArg (scoreAt (m ((c : Thread nD τ).loc main_arg0)) (m ((c : Thread nD τ).loc main_arg1)) (m ((c : Thread nD τ).loc main_arg2)) (m ((c : Thread nD τ).loc main_arg3)) (m ((c : Thread nD τ).loc main_arg4))) (Fin.ext ?_)
  show t.val * 2048 + (y 0).val = win0_6.index t 0 * 2048 + 1 * (y 0).val
  rw [h0]; omega

/-- Row `r` of the result lies in the block of step `r / 2048`. -/
theorem covered (i : S16384x1.Idx) :
    ∃ t : Fin cfg0.N, (cfg0.win 6).flush t = true ∧ i ∈ ((cfg0.win 6).blk t).view.set := by
  have hi0 : (i 0).val < 16384 := idx2_lt0 i
  have hi1 : (i 1).val < 1 := idx2_lt1 i
  have hN : cfg0.N = 8 := N_0
  have ht : (i 0).val / 2048 < cfg0.N := by rw [hN]; omega
  obtain ⟨-, -, -, -, -, -, -, -, -, -, -, -, -, h0, h1⟩ := index_facts ⟨(i 0).val / 2048, ht⟩
  refine ⟨⟨(i 0).val / 2048, ht⟩, flush0_6 _, ?_⟩
  show i ∈ ((View.whole main_v5).slice (win0_6.rect ⟨(i 0).val / 2048, ht⟩)).set
  rw [View.set_slice_whole, Rect.mem_set_unit]
  intro a
  match a with
  | ⟨0, _⟩ =>
    show win0_6.index ⟨(i 0).val / 2048, ht⟩ 0 * 2048 ≤ (i 0).val ∧ (i 0).val < win0_6.index ⟨(i 0).val / 2048, ht⟩ 0 * 2048 + 2048
    rw [h0]; show (i 0).val / 2048 * 2048 ≤ (i 0).val ∧ (i 0).val < (i 0).val / 2048 * 2048 + 2048; omega
  | ⟨1, _⟩ =>
    show win0_6.index ⟨(i 0).val / 2048, ht⟩ 1 * 1 ≤ (i 1).val ∧ (i 1).val < win0_6.index ⟨(i 0).val / 2048, ht⟩ 1 * 1 + 1
    rw [h1]; omega

/-- After the run the output array is the column of all scores. -/
theorem result_eq (c : Dev nD) : (dats m 0 c).arrAt 6 cfg0.N = score (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 (score (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq m c t) covered

/-- The kernel's run: every weakly fair execution ends with the output array at the scores and the arguments unchanged. -/
theorem run : θ_run defs (onTc (τ := τ) (main (F := Ideal))) ⟨m, fun _ => 0, ρ⟩ fun r => ∀ c : Dev nD,
      r.2.mem ((c : Thread nD τ).loc main_v5) = score (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_eq m c), (h c).2⟩) (run_blocks m ρ)

end Cert.KernelIdeal.Hand

end
-- ==== Proof.RefScore.lean ====
/-
  The reference program computes `Mlp.score`.

  The reference lays row r of the first table and row r of the second side by side into one row of 64 numbers, multiplies
  the resulting 16384 × 64 matrix by W0, adds b0 along each row, rectifies, multiplies by the column W1 and adds b1.
  Read at one entry: column k < 32 of the joined row is x[0, r, k] and column 32 + k is x[1, r, k] (`joined_top`,
  `joined_bot`), so the 64-term inner product of the joined row with column j of W0 splits, by `Mlp.sum_halves`, into the
  first table's row against the top half of W0 plus the second table's row against the bottom half: that is `Mlp.pre`
  (`pre_ref`). The rectifier is the maximum with the constant 0, and the last product has one output column, so the result
  at (r, 0) is `Mlp.scoreAt … r` (`ref_score`).
-/
import proofs.«140638_g12249246728547_cont_main3_525_5_alg».proof.Proof.Gen.ReferenceIdeal.Read
import proofs.«140638_g12249246728547_cont_main3_525_5_alg».proof.Proof.Score
import Idealize.ShloMosaic.Lib.ValueLayout

noncomputable section

open scoped BigOperators

namespace Cert.ReferenceIdeal.RefValue

open Cert.ReferenceIdeal Cert.ReferenceIdeal.Gen Cert.ReferenceIdeal.Read
open Idealize.ShloMosaic Idealize.ShloMosaic.ValueIdx Mlp

/-- Plane 0 of the stack, as a 16384 × 32 matrix, at `(r, k)`. -/
theorem table0_apply (x0 : (⟨S2x16384x32, .f32⟩ : BufTy).Contents (Elt Ideal)) (r : Fin 16384) (k : Fin 32) :
    val_main_v1 (F := Ideal) x0 (ix2 r k) = x0 (ix3 (0 : Fin 2) r k) := by
  unfold val_main_v1
  rw [shapeCast_1ab_ab_apply]
  unfold val_main_v0
  exact extractStridedSlice_apply _ _ _ _ _ (fun ax => by
    match ax with
    | ⟨0, _⟩ => rfl
    | ⟨1, _⟩ => exact (Nat.zero_add _).symm
    | ⟨2, _⟩ => exact (Nat.zero_add _).symm)

/-- Plane 1 of the stack, as a 16384 × 32 matrix, at `(r, k)`. -/
theorem table1_apply (x0 : (⟨S2x16384x32, .f32⟩ : BufTy).Contents (Elt Ideal)) (r : Fin 16384) (k : Fin 32) :
    val_main_v3 (F := Ideal) x0 (ix2 r k) = x0 (ix3 (1 : Fin 2) r k) := by
  unfold val_main_v3
  rw [shapeCast_1ab_ab_apply]
  unfold val_main_v2
  exact extractStridedSlice_apply _ _ _ _ _ (fun ax => by
    match ax with
    | ⟨0, _⟩ => rfl
    | ⟨1, _⟩ => exact (Nat.zero_add _).symm
    | ⟨2, _⟩ => exact (Nat.zero_add _).symm)

/-- The joined row's first 32 columns are the first table's row. -/
theorem joined_top (x0 : (⟨S2x16384x32, .f32⟩ : BufTy).Contents (Elt Ideal)) (r : Fin 16384) (k : Fin 32) :
    val_main_v4 (F := Ideal) x0 (ix2 r (top k)) = x0 (ix3 (0 : Fin 2) r k) := by
  unfold val_main_v4
  rw [concatenate_pair_apply_left (t := S16384x64) (s₁ := S16384x32) (s₂ := S16384x32) (1 : Fin 2) _ _
    concatenates_S16384x32_S16384x32_S16384x64_d1 (ix2 r (top k)) rfl (ix2 r k)
    (fun b => by match b with | ⟨0, _⟩ => rfl | ⟨1, _⟩ => rfl)]
  exact table0_apply x0 r k

/-- The joined row's last 32 columns are the second table's row. -/
theorem joined_bot (x0 : (⟨S2x16384x32, .f32⟩ : BufTy).Contents (Elt Ideal)) (r : Fin 16384) (k : Fin 32) :
    val_main_v4 (F := Ideal) x0 (ix2 r (bot k)) = x0 (ix3 (1 : Fin 2) r k) := by
  unfold val_main_v4
  rw [concatenate_pair_apply_right (t := S16384x64) (s₁ := S16384x32) (s₂ := S16384x32) (1 : Fin 2) _ _
    concatenates_S16384x32_S16384x32_S16384x64_d1 (ix2 r (bot k)) rfl rfl (ix2 r k)
    (fun b hb => by match b with | ⟨0, _⟩ => rfl | ⟨1, _⟩ => exact absurd rfl hb)
    (by show k.val + 32 = 32 + k.val; omega)]
  exact table1_apply x0 r k

/-- What hidden unit `j` receives for row `r` in the reference is `Mlp.pre`. -/
theorem pre_ref (x0 : (⟨S2x16384x32, .f32⟩ : BufTy).Contents (Elt Ideal)) (x1 : (⟨S64x64, .f32⟩ : BufTy).Contents (Elt Ideal))
    (x2 : (⟨S64, .f32⟩ : BufTy).Contents (Elt Ideal)) (r : Fin 16384) (j : Fin 64) :
    val_main_v8 (F := Ideal) x0 x1 x2 (ix2 r j) = pre x0 x1 x2 r j := by
  have hl : ∀ k : Fin 64, lidx_main_v5 (ix2 r j) k = ix2 r k := fun k => funext fun a => Fin.ext (by
    match a with | ⟨0, _⟩ => rfl | ⟨1, _⟩ => rfl)
  have hr : ∀ k : Fin 64, ridx_main_v5 (ix2 r j) k = ix2 k j := fun k => funext fun a => Fin.ext (by
    match a with | ⟨0, _⟩ => rfl | ⟨1, _⟩ => rfl)
  have hb : idx_main_v6 (idx_main_v7 (ix2 r j)) = ix1 j := funext fun a => Fin.ext (by
    match a with | ⟨0, _⟩ => rfl)
  rw [val_main_v8_apply, val_main_v5_apply, val_main_v7_apply, val_main_v6_apply, sum_halves]
  simp only [hl, hr, hb, joined_top, joined_bot]
  rfl

/-- The reference's result is `Mlp.score` of the five arguments. -/
theorem ref_score (x0 : (⟨S2x16384x32, .f32⟩ : BufTy).Contents (Elt Ideal)) (x1 : (⟨S64x64, .f32⟩ : BufTy).Contents (Elt Ideal))
    (x2 : (⟨S64, .f32⟩ : BufTy).Contents (Elt Ideal)) (x3 : (⟨S64x1, .f32⟩ : BufTy).Contents (Elt Ideal))
    (x4 : (⟨S1, .f32⟩ : BufTy).Contents (Elt Ideal)) :
    val_main_v13 (F := Ideal) x0 x1 x2 x3 x4 = score x0 x1 x2 x3 x4 := by
  funext i
  obtain ⟨r, u, rfl⟩ : ∃ (r : Fin 16384) (u : Fin 1), i = ix2 r u := ⟨i 0, i 1, eq_ix2 i⟩
  have hl : ∀ k : Fin 64, lidx_main_v10 (ix2 r u) k = ix2 r k := fun k => funext fun a => Fin.ext (by
    match a with | ⟨0, _⟩ => rfl | ⟨1, _⟩ => rfl)
  have hr : ∀ k : Fin 64, ridx_main_v10 (ix2 r u) k = ix2 k (0 : Fin 1) := fun k => funext fun a => Fin.ext (by
    match a with | ⟨0, _⟩ => rfl | ⟨1, _⟩ => show u.val = 0; omega)
  have hb : idx_main_v11 (idx_main_v12 (ix2 r u)) = ix1 (0 : Fin 1) := funext fun a => Fin.ext (by
    match a with | ⟨0, _⟩ => rfl)
  rw [score_apply, val_main_v13_apply, val_main_v10_apply, val_main_v12_apply, val_main_v11_apply]
  unfold scoreAt
  simp only [hl, hr, hb, val_main_v9_apply, pre_ref, val_main_call0_v0_apply, val_main_call0_cst_apply,
    Ideal.maximumf_def, Ideal.addf_def, Ideal.ofBits_def, Ideal.ofBits_zero_f32]

end Cert.ReferenceIdeal.RefValue

end
-- ==== Proof.lean ====
/-
  A two-layer scoring network, one score per batch row, computed block by block against the whole-array reference.

  Both programs take a stack x of two 16384 × 32 tables, a 64 × 64 matrix W0 with bias b0, and a 64 × 1 column W1 with
  bias b1, and return the 16384 × 1 column whose entry r is

      (Σ_j  max ((Σ_k x[0, r, k] · W0[k, j] + Σ_k x[1, r, k] · W0[32 + k, j]) + b0[j]) 0 · W1[j, 0]) + b1[0]

  (`Mlp.score`). The reference joins the two tables' rows into rows of 64 numbers and takes one product with W0; the
  kernel never joins them: it multiplies the first table's rows by the top half of W0 and the second table's rows by the
  bottom half and adds. The two agree because a sum of 64 terms is the sum of its first 32 plus the sum of its last 32
  (`Mlp.sum_halves`); on the extended reals this regrouping uses only that addition is commutative and associative, so
  the finiteness of the inputs is never opened. The kernel's last layer multiplies entry by entry and sums along each row
  where the reference takes a matrix product with a one-column matrix: the same 64-term sum.

  The kernel runs over 8 grid steps of 2048 rows each; `Cert.KernelIdeal.Hand.run` shows the output array ends holding
  `Mlp.score` of the arguments, and `Cert.ReferenceIdeal.RefValue.ref_score` that the reference's result is the same
  function. The three frame claims are the generated frames (the reference's is its run with the result dropped), and the
  idealization rewrote no operation, so `preserves` is trivial.
-/
import proofs.«140638_g12249246728547_cont_main3_525_5_alg».proof.Defs
import proofs.«140638_g12249246728547_cont_main3_525_5_alg».proof.Proof.Gen.Kernel
import proofs.«140638_g12249246728547_cont_main3_525_5_alg».proof.Proof.Gen.Kernel.Skeleton
import proofs.«140638_g12249246728547_cont_main3_525_5_alg».proof.Proof.Gen.Kernel.Launch
import proofs.«140638_g12249246728547_cont_main3_525_5_alg».proof.Proof.Gen.Kernel.Points
import proofs.«140638_g12249246728547_cont_main3_525_5_alg».proof.Proof.Gen.Kernel.Frame
import proofs.«140638_g12249246728547_cont_main3_525_5_alg».proof.Proof.Gen.KernelIdeal
import proofs.«140638_g12249246728547_cont_main3_525_5_alg».proof.Proof.Gen.KernelIdeal.Skeleton
import proofs.«140638_g12249246728547_cont_main3_525_5_alg».proof.Proof.Gen.KernelIdeal.Launch
import proofs.«140638_g12249246728547_cont_main3_525_5_alg».proof.Proof.Gen.KernelIdeal.Points
import proofs.«140638_g12249246728547_cont_main3_525_5_alg».proof.Proof.Gen.KernelIdeal.Frame
import proofs.«140638_g12249246728547_cont_main3_525_5_alg».proof.Proof.Gen.ReferenceIdeal
import proofs.«140638_g12249246728547_cont_main3_525_5_alg».proof.Proof.Gen.Pre_finite_inputs
import proofs.«140638_g12249246728547_cont_main3_525_5_alg».proof.Proof.Gen.KernelIdeal.Value
import proofs.«140638_g12249246728547_cont_main3_525_5_alg».proof.Proof.Gen.ReferenceIdeal.Run
import proofs.«140638_g12249246728547_cont_main3_525_5_alg».proof.Proof.Gen.ReferenceIdeal.Read
import proofs.«140638_g12249246728547_cont_main3_525_5_alg».proof.Proof.Blocks
import proofs.«140638_g12249246728547_cont_main3_525_5_alg».proof.Proof.RefScore
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, with what the run says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the column of scores of the same arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.ref_score,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
